-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256 : Shape := ⟨3, ![32, 256, 256]⟩
abbrev S8192 : Shape := ⟨1, ![8192]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x256x256 .f32) (main_arg1 : FVec F S32x256x256 .f32) (main_arg2 : IVec S8192 32) (main_arg3 : IVec S8192 32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .eq main_arg2 main_v9
  let main_c_3 : IVec S_ 32 := constantI S_ 32 1#32
  let main_v11 : IVec S8192 32 := broadcastInDim S8192 ![] bcast_S_S8192 main_c_3
  let main_v12 : IVec S8192 1 := cmpi .eq main_arg2 main_v11
  let main_v13 : IVec S8192 1 := ori main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S32x256x256 : Shape := ⟨3, ![32, 256, 256]⟩
abbrev S8192 : Shape := ⟨1, ![8192]⟩
abbrev S8192x256 : Shape := ⟨2, ![8192, 256]⟩
abbrev S_ : Shape := ⟨0, ![]⟩
abbrev S8192x1 : Shape := ⟨2, ![8192, 1]⟩
abbrev S1x8192 : Shape := ⟨2, ![1, 8192]⟩
abbrev S8x1x8192 : Shape := ⟨3, ![8, 1, 8192]⟩
abbrev S1024x256 : Shape := ⟨2, ![1024, 256]⟩
abbrev S1x1024 : Shape := ⟨2, ![1, 1024]⟩
abbrev S1x1x1024 : Shape := ⟨3, ![1, 1, 1024]⟩
abbrev S256x1024 : Shape := ⟨2, ![256, 1024]⟩
abbrev S1024x1024 : Shape := ⟨2, ![1024, 1024]⟩
abbrev S1024x1 : Shape := ⟨2, ![1024, 1]⟩
abbrev S1024 : Shape := ⟨1, ![1024]⟩
abbrev S8x8192 : Shape := ⟨2, ![8, 8192]⟩

abbrev nBuf : Space → Nat
  | .hbm => 91
  | .vmem => 16
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S8192, .i32⟩
  | .hbm, ⟨3, _⟩ => ⟨S8192, .i32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .bf16⟩
  | .hbm, ⟨25, _⟩ => ⟨S8192x256, .f32⟩
  | .hbm, ⟨26, _⟩ => ⟨S8192x256, .f32⟩
  | .hbm, ⟨27, _⟩ => ⟨S8192x256, .bf16⟩
  | .hbm, ⟨28, _⟩ => ⟨S1x8192, .i32⟩
  | .hbm, ⟨29, _⟩ => ⟨S1x8192, .i32⟩
  | .hbm, ⟨30, _⟩ => ⟨S8x1x8192, .f32⟩
  | .hbm, ⟨31, _⟩ => ⟨S8x1x8192, .f32⟩
  | .hbm, ⟨32, _⟩ => ⟨S8x1x8192, .f32⟩
  | .hbm, ⟨33, _⟩ => ⟨S8x1x8192, .f32⟩
  | .hbm, ⟨34, _⟩ => ⟨S8x8192, .f32⟩
  | .hbm, ⟨35, _⟩ => ⟨S_, .f32⟩
  | .hbm, ⟨36, _⟩ => ⟨S8192, .f32⟩
  | .hbm, ⟨37, _⟩ => ⟨S8x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .i1⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8x8192, .f32⟩
  | .hbm, ⟨62, _⟩ => ⟨S_, .f32⟩
  | .hbm, ⟨63, _⟩ => ⟨S8192, .f32⟩
  | .hbm, ⟨64, _⟩ => ⟨S8x8192, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .i1⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_v51 : Ref sig .tc := ⟨.hbm, 82, rfl⟩
abbrev main_cst_15 : Ref sig .tc := ⟨.hbm, 83, rfl⟩
abbrev main_v52 : Ref sig .tc := ⟨.hbm, 84, rfl⟩
abbrev main_cst_16 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_17 : Ref sig .tc := ⟨.hbm, 89, rfl⟩
abbrev main_v56 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S32x256x256_S8192x256 : S32x256x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S8x1x8192_S8x8192 : S8x1x8192.ShapeCasts S8x8192
  reducesTo_S8x8192_S8192_d0 : S8x8192.ReducesTo [0] S8192
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x8192.size a
  hwx0_4 : ∀ i : grid0.Coords, EltTy.bits .f32 = 32 ∨ (Rect.block (s := S8x1x8192) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x8192.size a
  hwx0_5 : ∀ i : grid0.Coords, EltTy.bits .f32 = 32 ∨ (Rect.block (s := S8x1x8192) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x8192.size a
  hwx0_6 : ∀ i : grid0.Coords, EltTy.bits .f32 = 32 ∨ (Rect.block (s := S8x1x8192) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S8x1x8192.size a
  hwx0_7 : ∀ i : grid0.Coords, EltTy.bits .f32 = 32 ∨ (Rect.block (s := S8x1x8192) S1x1x1024.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v10) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_3) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x256x256 : Shape := ⟨3, ![32, 256, 256]⟩
abbrev S8192 : Shape := ⟨1, ![8192]⟩
abbrev S8192x256 : Shape := ⟨2, ![8192, 256]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 112
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S8192, .i32⟩
  | .hbm, ⟨3, _⟩ => ⟨S8192, .i32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S8192x1, .i1⟩
  | .hbm, ⟨44, _⟩ => ⟨S8192x8192, .i1⟩
  | .hbm, ⟨45, _⟩ => ⟨S8192x8192, .i1⟩
  | .hbm, ⟨46, _⟩ => ⟨S_, .i32⟩
  | .hbm, ⟨47, _⟩ => ⟨S8192x1, .i32⟩
  | .hbm, ⟨48, _⟩ => ⟨S8192x1, .i1⟩
  | .hbm, ⟨49, _⟩ => ⟨S_, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x8192, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .i1⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .i1⟩
  | .hbm, ⟨98, _⟩ => ⟨S8192, .f32⟩
  | .hbm, ⟨99, _⟩ => ⟨S8192, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_cst_20 : Ref sig .tc := ⟨.hbm, 104, rfl⟩
abbrev main_v68 : Ref sig .tc := ⟨.hbm, 105, rfl⟩
abbrev main_cst_21 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_22 : Ref sig .tc := ⟨.hbm, 110, rfl⟩
abbrev main_v72 : Ref sig .tc := ⟨.hbm, 111, rfl⟩

abbrev nD : Nat := 1
abbrev τ : Topo := Topo.v7x

variable {F : FTy → Type} [FloatOps F]

class Facts₀ : Prop where
  shapeCasts_S32x256x256_S8192x256 : S32x256x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x8192_S8192_d0 : S8192x8192.ReducesTo [0] S8192
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Temp.lean ====
/-
  The one float literal whose value the proof reads: the reference divides the similarities by the temperature
  `f32(0.07)`, the dyadic rational 9395241 / 2^27, and the kernel multiplies them by the named reciprocal
  2^27 / 9395241. On every extended real the quotient by a nonzero real is the product with its reciprocal.
-/
import Idealize.ShloMosaic.PureOps.Ideal

noncomputable section

namespace Cert.Temp

open Idealize.ShloMosaic

/-- The reciprocal of the temperature, as the extended real the kernel's named constant denotes. -/
abbrev invTemp : EReal := ((134217728 / 9395241 : ℝ) : EReal)

/-- The word `0x3D8F5C29` denotes 9395241 / 2^27. -/
theorem ofBits_temp : Ideal.ofBits .f32 0x3D8F5C29#32 = ((9395241 / 134217728 : ℝ) : EReal) := by
  simp [Ideal.ofBits, Ideal.ieee, -EReal.coe_mul]; norm_num

/-- Dividing by the temperature is multiplying by its reciprocal, at every extended real. -/
theorem div_temp (x : EReal) : Ideal.div x (Ideal.ofBits .f32 0x3D8F5C29#32) = x * invTemp := by
  rw [ofBits_temp, Ideal.div_coe (by norm_num : (9395241 / 134217728 : ℝ) ≠ 0)]
  congr 2
  norm_num

end Cert.Temp

end
-- ==== Proof.KPay.lean ====
/-
  The kernel body's four stored values, read at an index of the stored block, over ANY loaded blocks:
  `x0`, `x1` the 1024 × 256 blocks of normalised audio and visual rows, `x2`, `x3` the 1 × 1024 blocks of labels.

  With `tileE p q = exp (⟨x0 p, x1 q⟩ · (1 / temperature))`, `tileEm p q` that value where the labels of row `p` and
  column `q` agree and zero elsewhere, and `tileW p` the weight of row `p` (one where its label is one, the small
  weight otherwise), the body stores, at lane `p` (`q`) of its four `[1, 1, 1024]` outputs,
  the row sums `Σ_q tileE p q`, the weighted row sums `tileW p · Σ_q tileEm p q`, the column sums `Σ_p tileE p q` and
  the weighted column sums `Σ_p tileEm p q · tileW p`.
-/
import proofs.«400186_j39642548142296_3_alg».proof.Proof.Gen.KernelIdeal.Skeleton
import proofs.«400186_j39642548142296_3_alg».proof.Proof.Temp
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen
open Idealize.ShloMosaic Idealize.ShloMosaic.TcCoe Idealize.ShloMosaic.ValueIdx

variable (x0 x1 : FVec Ideal S1024x256 .bf16) (x2 x3 : IVec S1x1024 32)

/-- The exponential of the scaled inner product of row `p` of `x0` and row `q` of `x1`. -/
def tileE (p q : Fin 1024) : EReal := Ideal.exp ((∑ k : Fin 256, x0 (ix2 p k) * x1 (ix2 q k)) * Cert.Temp.invTemp)

/-- Do the label of row `p` and the label of column `q` agree? -/
def tileSame (p q : Fin 1024) : BitVec 1 := IntOp.cmpi .eq (x2 (ix2 (0 : Fin 1) p)) (x3 (ix2 (0 : Fin 1) q))

/-- The weight of row `p`. -/
def tileW (p : Fin 1024) : EReal :=
  Scalar.select (IntOp.cmpi .eq (x2 (ix2 (0 : Fin 1) p)) 1#32) (Ideal.ofBits .f32 0x3F800000#32) (Ideal.ofBits .f32 0x3DCCCCCD#32)

/-- The exponential where the labels agree, zero elsewhere. -/
def tileEm (p q : Fin 1024) : EReal :=
  Scalar.select (tileSame x2 x3 p q) (tileE x0 x1 p q) (Ideal.ofBits .f32 0x00000000#32)

/-- The kernel's named scale denotes the reciprocal of the temperature. -/
theorem named_invTemp :
    Named.named (F := Ideal) Cert.KernelIdeal.κ "inv_temp" (φ := .f32) 0x41649249#32 = Cert.Temp.invTemp :=
  IdealRules.named_const.ideal_named_scalar _ _ _ _ rfl

/-! ## The operations that move indices, each read at an index -/

/-- The left operand's row coordinate is the output's row. -/
theorem lhs_dot_0 (i : S1024x1024.Idx) (c : dot_S1024x256_S256x1024_S1024x1024_1_0_0_1_n_n.contr.Idx) : (dot_S1024x256_S256x1024_S1024x1024_1_0_0_1_n_n.lhsIdx i c 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl

/-- The left operand's column coordinate is the contraction coordinate. -/
theorem lhs_dot_1 (i : S1024x1024.Idx) (c : dot_S1024x256_S256x1024_S1024x1024_1_0_0_1_n_n.contr.Idx) : (dot_S1024x256_S256x1024_S1024x1024_1_0_0_1_n_n.lhsIdx i c 1).val = (c ⟨0, by decide⟩).val :=
  dot_S1024x256_S256x1024_S1024x1024_1_0_0_1_n_n.lhsIdx_val_of_single rfl i c

/-- The right operand's row coordinate is the contraction coordinate. -/
theorem rhs_dot_0 (i : S1024x1024.Idx) (c : dot_S1024x256_S256x1024_S1024x1024_1_0_0_1_n_n.contr.Idx) : (dot_S1024x256_S256x1024_S1024x1024_1_0_0_1_n_n.rhsIdx i c 0).val = (c ⟨0, by decide⟩).val :=
  dot_S1024x256_S256x1024_S1024x1024_1_0_0_1_n_n.rhsIdx_val_of_single rfl i c

/-- The right operand's column coordinate is the output's column. -/
theorem rhs_dot_1 (i : S1024x1024.Idx) (c : dot_S1024x256_S256x1024_S1024x1024_1_0_0_1_n_n.contr.Idx) : (dot_S1024x256_S256x1024_S1024x1024_1_0_0_1_n_n.rhsIdx i c 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The product into a zero accumulator, at `(p, q)`: the inner product of row `p` of the left operand and column `q`
    of the right one. -/
theorem matmul_ix2 (lhs : FVec Ideal S1024x256 .bf16) (rhs : FVec Ideal S256x1024 .bf16) (p q : Fin 1024) :
    matmul dot_S1024x256_S256x1024_S1024x1024_1_0_0_1_n_n none lhs rhs (constant (F := Ideal) S1024x1024 .f32 0x00000000#32) (ix2 p q)
      = ∑ k : Fin 256, lhs (ix2 p k) * rhs (ix2 k q) := by
  refine (Ideal.matmul_constant_zero_apply dot_S1024x256_S256x1024_S1024x1024_1_0_0_1_n_n none lhs rhs (ix2 p q)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- A sum along the lanes, at row `p`. -/
theorem laneSum_apply (v : FVec Ideal S1024x1024 .f32) (h : S1024x1024.Reduces [1] S1024) (hφ : FKind.Formats .f32)
    (hacc : (0x00000000#32 : BitVec (FTy.bits .f32)) = FKind.add.neutral .f32 hφ) (p : Fin 1024) :
    multiReduction (F := Ideal) .add [1] S1024 v 0x00000000#32 h hφ hacc (ix1 p) = ∑ q : Fin 1024, v (ix2 p q) := by
  refine (Ideal.multiReduction_add_single (φ := .f32) v _ h hφ hacc (ix1 p)).trans ?_
  exact Finset.sum_congr rfl fun q _ => congrArg v (funext fun a => Fin.ext (by
    match a with
    | ⟨0, _⟩ => rfl
    | ⟨1, _⟩ => rfl))

/-- A sum along the sublanes, at column `q`. -/
theorem sublaneSum_apply (v : FVec Ideal S1024x1024 .f32) (h : S1024x1024.Reduces [0] S1024) (hφ : FKind.Formats .f32)
    (hacc : (0x00000000#32 : BitVec (FTy.bits .f32)) = FKind.add.neutral .f32 hφ) (q : Fin 1024) :
    multiReduction (F := Ideal) .add [0] S1024 v 0x00000000#32 h hφ hacc (ix1 q) = ∑ p : Fin 1024, v (ix2 p q) := by
  refine (Ideal.multiReduction_add_single (φ := .f32) v _ h hφ hacc (ix1 q)).trans ?_
  exact Finset.sum_congr rfl fun p _ => congrArg v (funext fun a => Fin.ext (by
    match a with
    | ⟨0, _⟩ => rfl
    | ⟨1, _⟩ => rfl))

/-- A vector cast to a column reads, at `(p, u)`, the vector at `p`. -/
theorem castCol_apply {α : Type} (w : S1024.Idx → α) (h : S1024.ShapeCasts S1024x1) (p : Fin 1024) (u : Fin 1) :
    shapeCast S1024x1 w h (ix2 p u) = w (ix1 p) :=
  shapeCast_apply w h _ _ (by
    have hu : u.val = 0 := by omega
    rw [Shape.rowMajor_val_one, Shape.rowMajor_val_two]
    show p.val = p.val * 1 + u.val
    omega)

/-- A column broadcast along the lanes reads, at `(p, q)`, the column at `p`. -/
theorem bcastCol_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The body's tiles at an index -/

/-- The exponentials' tile at `(p, q)`. -/
theorem pay4_apply (p q : Fin 1024) : k0_pay4 (F := Ideal) x0 x1 (ix2 p q) = tileE x0 x1 p q := by
  unfold k0_pay4 tileE
  simp only [shapeCast_self]
  show Ideal.exp (matmul dot_S1024x256_S256x1024_S1024x1024_1_0_0_1_n_n none x0
      (transpose S256x1024 [1, 0] x1 transposes_S1024x256_p1_0_S256x1024)
      (constant (F := Ideal) S1024x1024 .f32 0x00000000#32) (ix2 p q)
      * Named.named (F := Ideal) Cert.KernelIdeal.κ "inv_temp" (φ := .f32) 0x41649249#32) = _
  rw [matmul_ix2, named_invTemp]
  refine congrArg (fun s => Ideal.exp (s * Cert.Temp.invTemp)) (Finset.sum_congr rfl fun k _ => ?_)
  rw [transpose_ix2_apply]

/-- The labels as a column, at `(p, u)`: the label of row `p`. -/
theorem pay5_apply (p : Fin 1024) (u : Fin 1) : k0_pay5 (F := Ideal) x2 (ix2 p u) = x2 (ix2 (0 : Fin 1) p) := by
  unfold k0_pay5
  simp only [shapeCast_self]
  refine (transpose_ix2_apply _ _ p u).trans ?_
  have hu : u = 0 := Subsingleton.elim _ _
  rw [hu]

/-- The masked tile at `(p, q)`. -/
theorem pay6_apply (p q : Fin 1024) : k0_pay6 (F := Ideal) x0 x1 x2 x3 (ix2 p q) = tileEm x0 x1 x2 x3 p q := by
  unfold k0_pay6 tileEm tileSame
  simp only [shapeCast_self]
  show Scalar.select (IntOp.cmpi .eq
      (broadcastTo S1024x1024 (k0_pay5 (F := Ideal) x2) broadcasts_S1024x1_S1024x1024 (ix2 p q))
      (broadcastTo S1024x1024 x3 broadcasts_S1x1024_S1024x1024 (ix2 p q)))
    (k0_pay4 (F := Ideal) x0 x1 (ix2 p q)) (Ideal.ofBits .f32 0x00000000#32) = _
  rw [bcastCol_apply, broadcastTo_1b_ab_apply, pay5_apply, pay4_apply]

/-- The weights' column at `(p, u)`. -/
theorem pay7_apply (p : Fin 1024) (u : Fin 1) : k0_pay7 (F := Ideal) x2 (ix2 p u) = tileW x2 p := by
  unfold k0_pay7 tileW
  show Scalar.select (IntOp.cmpi .eq (k0_pay5 (F := Ideal) x2 (ix2 p u)) 1#32)
    (Ideal.ofBits .f32 0x3F800000#32) (Ideal.ofBits .f32 0x3DCCCCCD#32) = _
  rw [pay5_apply]

/-! ## The four stored values -/

/-- The stored row sums of the exponentials. -/
theorem rowExp_apply (u0 u1 : Fin 1) (p : Fin 1024) :
    k0_pay11 (F := Ideal) x0 x1 (ix3 u0 u1 p) = ∑ q : Fin 1024, tileE x0 x1 p q := by
  unfold k0_pay11
  refine (shapeCast_ab_1ab_apply _ _ u0 u1 p).trans ?_
  refine (transpose_ix2_apply _ _ u1 p).trans ?_
  refine (castCol_apply _ _ p u1).trans ?_
  refine (laneSum_apply _ _ _ _ p).trans ?_
  exact Finset.sum_congr rfl fun q _ => pay4_apply x0 x1 p q

/-- The stored weighted row sums. -/
theorem rowWexp_apply (u0 u1 : Fin 1) (p : Fin 1024) :
    k0_pay1 (F := Ideal) (k0_pay8 (F := Ideal) x0 x1 x2 x3) (ix3 u0 u1 p)
      = tileW x2 p * ∑ q : Fin 1024, tileEm x0 x1 x2 x3 p q := by
  unfold k0_pay1
  refine (shapeCast_ab_1ab_apply _ _ u0 u1 p).trans ?_
  refine (transpose_ix2_apply _ _ u1 p).trans ?_
  unfold k0_pay8
  show k0_pay7 (F := Ideal) x2 (ix2 p u1)
    * shapeCast S1024x1 (multiReduction (F := Ideal) .add [1] S1024 (k0_pay6 (F := Ideal) x0 x1 x2 x3) 0x00000000#32
        reduces_S1024x1024_S1024 (.inl rfl) rfl) shapeCasts_S1024_S1024x1 (ix2 p u1) = _
  rw [pay7_apply, castCol_apply]
  refine congrArg (tileW x2 p * ·) ((laneSum_apply _ _ _ _ p).trans ?_)
  exact Finset.sum_congr rfl fun q _ => pay6_apply x0 x1 x2 x3 p q

/-- The stored column sums of the exponentials. -/
theorem colExp_apply (u0 u1 : Fin 1) (q : Fin 1024) :
    k0_pay2 (F := Ideal) (k0_pay9 (F := Ideal) x0 x1) (ix3 u0 u1 q) = ∑ p : Fin 1024, tileE x0 x1 p q := by
  unfold k0_pay2
  refine (shapeCast_ab_1ab_apply _ _ u0 u1 q).trans ?_
  unfold k0_pay9
  refine (shapeCast_a_1a_apply _ _ u1 q).trans ?_
  refine (sublaneSum_apply _ _ _ _ q).trans ?_
  exact Finset.sum_congr rfl fun p _ => pay4_apply x0 x1 p q

/-- The stored weighted column sums. -/
theorem colWexp_apply (u0 u1 : Fin 1) (q : Fin 1024) :
    k0_pay3 (F := Ideal) (k0_pay10 (F := Ideal) x0 x1 x2 x3) (ix3 u0 u1 q)
      = ∑ p : Fin 1024, tileEm x0 x1 x2 x3 p q * tileW x2 p := by
  unfold k0_pay3
  refine (shapeCast_ab_1ab_apply _ _ u0 u1 q).trans ?_
  unfold k0_pay10
  refine (shapeCast_a_1a_apply _ _ u1 q).trans ?_
  refine (sublaneSum_apply _ _ _ _ q).trans ?_
  refine Finset.sum_congr rfl fun p _ => ?_
  show k0_pay6 (F := Ideal) x0 x1 x2 x3 (ix2 p q)
    * broadcastTo S1024x1024 (k0_pay7 (F := Ideal) x2) broadcasts_S1024x1_S1024x1024 (ix2 p q) = _
  rw [pay6_apply, bcastCol_apply, pay7_apply]

end Cert.KernelIdeal.Pay

end
-- ==== Proof.SumLaws.lean ====
/-
  Laws of finite sums of extended reals that the two programs' summations differ by.

  * The exponential at the ideal values is nonnegative on every extended real.
  * A product with ANY extended real moves inside a finite sum of nonnegative terms: on the extended reals
    multiplication distributes over a sum whose two summands are nonnegative, with no finiteness asked.
  * A sum over 8192 indices is the sum over 8 blocks of 1024 consecutive indices of the block's sum.
-/
import Idealize.ShloMosaic.PureOps.Ideal
import Mathlib.Data.EReal.Operations
import Mathlib.Algebra.BigOperators.Fin
import Mathlib.Logic.Equiv.Fin.Basic

noncomputable section

namespace Cert.SumLaws

open Idealize.ShloMosaic

/-- `e^x ≥ 0` at every extended real: `e^⊥ = 0`, `e^⊤ = ⊤`, and a real exponential is positive. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- A factor moves inside a finite sum of nonnegative extended reals. -/
theorem mul_sum_of_nonneg {ι : Type} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- Index `q` of block `t` of the 8 blocks of 1024 that make up 8192 indices. -/
def blk (t : Fin 8) (q : Fin 1024) : Fin 8192 := ⟨t.val * 1024 + q.val, by have := t.isLt; have := q.isLt; omega⟩

@[simp] theorem blk_val (t : Fin 8) (q : Fin 1024) : (blk t q).val = t.val * 1024 + q.val := rfl

/-- The pairs (block, index inside the block) are the 8192 indices. -/
def blkEquiv : Fin 8 × Fin 1024 ≃ Fin 8192 where
  toFun p := blk p.1 p.2
  invFun j := (⟨j.val / 1024, by have := j.isLt; omega⟩, ⟨j.val % 1024, Nat.mod_lt _ (by norm_num)⟩)
  left_inv p := by
    obtain ⟨t, q⟩ := p
    have := q.isLt
    apply Prod.ext <;> apply Fin.ext <;> simp only [blk_val] <;> omega
  right_inv j := by
    apply Fin.ext; simp only [blk_val]; omega

/-- A sum over the 8192 indices, taken block by block. -/
theorem sum_blocks {M : Type} [AddCommMonoid M] (f : Fin 8192 → M) :
    ∑ t : Fin 8, ∑ q : Fin 1024, f (blk t q) = ∑ j : Fin 8192, f j := by
  rw [← Fintype.sum_prod_type' (fun t q => f (blk t q))]
  exact Fintype.sum_equiv blkEquiv _ _ fun _ => rfl

end Cert.SumLaws

end
-- ==== Proof.Spec.lean ====
/-
  The mathematics both programs compute, element by element, over the normalised feature rows `A` (audio) and `V`
  (visual) and the two label vectors.

  * `E i j = exp (⟨A i, V j⟩ · (1 / temperature))`, the exponential of the scaled similarity of audio row `i` and visual row `j`;
  * `wt i`, the weight of audio row `i`: one when its label is one, the small weight otherwise;
  * `Em i j`: `E i j` where the two labels agree, zero elsewhere (the kernel's masked exponential);
  * `refTerm i j`: the reference's weighted term `E i j · (wt i · [labels agree and the audio label is 0 or 1])`.

  The kernel leaves, per block `t` of 1024 columns (rows), the block's partial sums; the host adds the 8 blocks. The
  laws here say that the 8 partial sums add up to the reference's sums over all 8192 indices:
  regrouping a finite sum needs nothing of the extended reals, and the one place a factor moves across a sum
  (`wt i · Σ_q Em i q` in the row direction) has nonnegative summands, where the extended reals distribute.
  Where every audio label is 0 or 1 the reference's extra test is vacuous and `refTerm i j = Em i j · wt i`.
-/
import proofs.«400186_j39642548142296_3_alg».proof.Proof.SumLaws
import proofs.«400186_j39642548142296_3_alg».proof.Proof.Temp
import Idealize.ShloMosaic.Lib.ValueIdx
import Idealize.ShloMosaic.PureOps.Ideal.Laws

noncomputable section

namespace Cert.Spec

open Idealize.ShloMosaic Idealize.ShloMosaic.ValueIdx Cert.SumLaws

/-- The shape of a normalised feature array: 8192 rows of 256 features. -/
abbrev SM : Shape := ⟨2, ![8192, 256]⟩
/-- The shape of a label vector. -/
abbrev SL : Shape := ⟨1, ![8192]⟩

variable (A V : SM.Idx → EReal) (la lv : SL.Idx → BitVec 32)

/-- The inner product of audio row `i` and visual row `j`. -/
def sim (i j : Fin 8192) : EReal := ∑ k : Fin 256, A (ix2 i k) * V (ix2 j k)

/-- The exponential of the similarity over the temperature. -/
def E (i j : Fin 8192) : EReal := Ideal.exp (sim A V i j * Cert.Temp.invTemp)

/-- Do audio label `i` and visual label `j` agree? -/
def same (i j : Fin 8192) : BitVec 1 := IntOp.cmpi .eq (la (ix1 i)) (lv (ix1 j))

/-- The weight of audio row `i`. -/
def wt (i : Fin 8192) : EReal :=
  Scalar.select (IntOp.cmpi .eq (la (ix1 i)) 1#32) (Ideal.ofBits .f32 0x3F800000#32) (Ideal.ofBits .f32 0x3DCCCCCD#32)

/-- The exponential where the labels agree, zero elsewhere. -/
def Em (i j : Fin 8192) : EReal := Scalar.select (same la lv i j) (E A V i j) (Ideal.ofBits .f32 0x00000000#32)

/-- The reference's weighted term. -/
def refTerm (i j : Fin 8192) : EReal :=
  E A V i j * (wt la i * (((IntOp.andi (same la lv i j)
    (IntOp.ori (IntOp.cmpi .eq (la (ix1 i)) 1#32) (IntOp.cmpi .eq (la (ix1 i)) 0#32))).toNat : ℝ) : EReal))

/-- Block `t`'s share of row `i`'s sum of exponentials. -/
def rowExp (t : Fin 8) (i : Fin 8192) : EReal := ∑ q : Fin 1024, E A V i (blk t q)
/-- Block `t`'s share of row `i`'s weighted sum: the weight times the block's masked sum. -/
def rowWexp (t : Fin 8) (i : Fin 8192) : EReal := wt la i * ∑ q : Fin 1024, Em A V la lv i (blk t q)
/-- Block `t`'s share of column `j`'s sum of exponentials. -/
def colExp (t : Fin 8) (j : Fin 8192) : EReal := ∑ p : Fin 1024, E A V (blk t p) j
/-- Block `t`'s share of column `j`'s weighted sum. -/
def colWexp (t : Fin 8) (j : Fin 8192) : EReal := ∑ p : Fin 1024, Em A V la lv (blk t p) j * wt la (blk t p)

theorem E_nonneg (i j : Fin 8192) : 0 ≤ E A V i j := exp_nonneg _

theorem Em_nonneg (i j : Fin 8192) : 0 ≤ Em A V la lv i j := by
  unfold Em Scalar.select
  split
  · exact E_nonneg A V i j
  · rw [Ideal.ofBits_zero_f32]

/-- With the audio label 0 or 1 the reference's term is the masked exponential times the weight. -/
theorem refTerm_eq (hla : ∀ i, la (ix1 i) = 0#32 ∨ la (ix1 i) = 1#32) (i j : Fin 8192) :
    refTerm A V la lv i j = Em A V la lv i j * wt la i := by
  unfold refTerm Em
  have hor : IntOp.ori (IntOp.cmpi .eq (la (ix1 i)) 1#32) (IntOp.cmpi .eq (la (ix1 i)) 0#32) = 1#1 := by
    rcases hla i with h | h <;> rw [h] <;> decide
  rw [hor]
  generalize same la lv i j = s
  generalize E A V i j = e
  generalize wt la i = w
  have hs : s = 0#1 ∨ s = 1#1 := by revert s; decide
  rcases hs with rfl | rfl
  · have h0 : IntOp.andi (0#1) (1#1) = 0#1 := by decide
    rw [h0, Ideal.ofBits_zero_f32, ValueIdx.select_zero]
    simp
  · have h1 : IntOp.andi (1#1) (1#1) = 1#1 := by decide
    rw [h1, ValueIdx.select_one]
    simp [mul_comm]

/-- The eight blocks' shares of a row's sum of exponentials add up to the row's sum. -/
theorem sum_rowExp (i : Fin 8192) : ∑ t : Fin 8, rowExp A V t i = ∑ j : Fin 8192, E A V i j :=
  sum_blocks fun j => E A V i j

/-- The eight blocks' shares of a column's sum of exponentials add up to the column's sum. -/
theorem sum_colExp (j : Fin 8192) : ∑ t : Fin 8, colExp A V t j = ∑ i : Fin 8192, E A V i j :=
  sum_blocks fun i => E A V i j

/-- The eight blocks' shares of a row's weighted sum add up to the reference's weighted row sum. -/
theorem sum_rowWexp (hla : ∀ i, la (ix1 i) = 0#32 ∨ la (ix1 i) = 1#32) (i : Fin 8192) :
    ∑ t : Fin 8, rowWexp A V la lv t i = ∑ j : Fin 8192, refTerm A V la lv i j := by
  unfold rowWexp
  simp only [mul_sum_of_nonneg _ _ _ fun q _ => Em_nonneg A V la lv i _]
  rw [sum_blocks fun j => wt la i * Em A V la lv i j]
  exact Finset.sum_congr rfl fun j _ => by rw [refTerm_eq A V la lv hla, mul_comm]

/-- The eight blocks' shares of a column's weighted sum add up to the reference's weighted column sum. -/
theorem sum_colWexp (hla : ∀ i, la (ix1 i) = 0#32 ∨ la (ix1 i) = 1#32) (j : Fin 8192) :
    ∑ t : Fin 8, colWexp A V la lv t j = ∑ i : Fin 8192, refTerm A V la lv i j := by
  unfold colWexp
  rw [sum_blocks fun i => Em A V la lv i j * wt la i]
  exact Finset.sum_congr rfl fun i _ => (refTerm_eq A V la lv hla i j).symm

end Cert.Spec

end
-- ==== Proof.KFinal.lean ====
/-
  What the region leaves in its four output arrays, as whole-array functions of the arrays it reads.

  The grid has 8 × 8 points; point (ti, tj) loads rows `ti·1024 …` of the normalised audio rows and of the audio
  labels, rows `tj·1024 …` of the normalised visual rows and of the visual labels, and writes lane block `ti` of row
  `tj` of the two row-direction outputs and lane block `tj` of row `ti` of the two column-direction outputs. Every
  output block is written by exactly one point, the blocks tile each `[8, 1, 8192]` output, and so each output array
  ends holding, at `(t, 0, i)`, block `t`'s share of index `i`'s sum (the specification's `rowExp`, `rowWexp`,
  `colExp`, `colWexp`).
-/
import proofs.«400186_j39642548142296_3_alg».proof.Proof.FrameKernelIdeal
import proofs.«400186_j39642548142296_3_alg».proof.Proof.KPay
import proofs.«400186_j39642548142296_3_alg».proof.Proof.Spec
import Idealize.ShloMosaic.Lib.Pipeline.Value
import Idealize.ShloMosaic.Lib.ValueIdx

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.SumLaws (blk)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The normalised audio rows as the region finds them. -/
abbrev An (c : Dev nD) : Cert.Spec.SM.Idx → EReal := V m c main_v10
/-- The normalised visual rows as the region finds them. -/
abbrev Vn (c : Dev nD) : Cert.Spec.SM.Idx → EReal := V m c main_v13
/-- The audio labels as the region finds them (a row vector), by position. -/
abbrev La (c : Dev nD) : Cert.Spec.SL.Idx → BitVec 32 := fun i => V m c main_v14 (ix2 (0 : Fin 1) (i 0))
/-- The visual labels as the region finds them (a row vector), by position. -/
abbrev Lv (c : Dev nD) : Cert.Spec.SL.Idx → BitVec 32 := fun i => V m c main_v15 (ix2 (0 : Fin 1) (i 0))

/-- The input blocks at a point, at their literal types. -/
abbrev ablk (c : Dev nD) (t : Fin cfg0.N) : FVec Ideal S1024x256 .bf16 := iblk m c 0 t
abbrev vblk (c : Dev nD) (t : Fin cfg0.N) : FVec Ideal S1024x256 .bf16 := iblk m c 1 t
abbrev lablk (c : Dev nD) (t : Fin cfg0.N) : IVec S1x1024 32 := iblk m c 2 t
abbrev lvblk (c : Dev nD) (t : Fin cfg0.N) : IVec S1x1024 32 := iblk m c 3 t

/-- The printed index maps, decided over the grid of 8 × 8 points: with (ti, tj) the block indices of the
    row-direction outputs' lanes and rows, which blocks each window reads or writes. -/
theorem idx_facts : ∀ t : Fin cfg0.N,
    win0_0.index t (0 : Fin 2) = win0_4.index t (2 : Fin 3) ∧ win0_0.index t (1 : Fin 2) = 0
    ∧ win0_1.index t (0 : Fin 2) = win0_4.index t (0 : Fin 3) ∧ win0_1.index t (1 : Fin 2) = 0
    ∧ win0_2.index t (0 : Fin 2) = 0 ∧ win0_2.index t (1 : Fin 2) = win0_4.index t (2 : Fin 3)
    ∧ win0_3.index t (0 : Fin 2) = 0 ∧ win0_3.index t (1 : Fin 2) = win0_4.index t (0 : Fin 3)
    ∧ win0_4.index t (1 : Fin 3) = 0 ∧ win0_4.index t (0 : Fin 3) < 8 ∧ win0_4.index t (2 : Fin 3) < 8
    ∧ win0_5.index t = win0_4.index t
    ∧ win0_6.index t (0 : Fin 3) = win0_4.index t (2 : Fin 3) ∧ win0_6.index t (1 : Fin 3) = 0
    ∧ win0_6.index t (2 : Fin 3) = win0_4.index t (0 : Fin 3)
    ∧ win0_7.index t = win0_6.index t :=
  (by decide +kernel : ∀ t : Fin grid0.N, _)

/-- Every pair of block indices is some point's. -/
theorem idx_onto : ∀ (q0 q2 : Fin 8), ∃ t : Fin cfg0.N, win0_4.index t (0 : Fin 3) = q0.val ∧ win0_4.index t (2 : Fin 3) = q2.val :=
  (by decide +kernel : ∀ (q0 q2 : Fin 8), ∃ t : Fin grid0.N, win0_4.index t (0 : Fin 3) = q0.val ∧ win0_4.index t (2 : Fin 3) = q2.val)

/-- An element of the audio block at point `t` is the array's at the block's rows. -/
theorem ablk_apply (c : Dev nD) (t : Fin cfg0.N) (p : Fin 1024) (k : Fin 256) (I : Fin 8192)
    (hI : I.val = win0_0.index t (0 : Fin 2) * 1024 + p.val) :
    ablk m c t (ix2 p k) = An m c (ix2 I k) := by
  obtain ⟨e0, e1, -⟩ := idx_facts t
  unfold ablk iblk
  rw [View.read_apply]
  show V m c main_v10 _ = V m c main_v10 _
  congr 1
  funext a
  apply Fin.ext
  match a with
  | ⟨0, _⟩ => show win0_0.index t (0 : Fin 2) * 1024 + 1 * p.val = I.val; omega
  | ⟨1, _⟩ => show win0_0.index t (1 : Fin 2) * 256 + 1 * k.val = k.val; omega

/-- An element of the visual block at point `t` is the array's at the block's rows. -/
theorem vblk_apply (c : Dev nD) (t : Fin cfg0.N) (q : Fin 1024) (k : Fin 256) (J : Fin 8192)
    (hJ : J.val = win0_1.index t (0 : Fin 2) * 1024 + q.val) :
    vblk m c t (ix2 q k) = Vn m c (ix2 J k) := by
  obtain ⟨-, -, e2, e3, -⟩ := idx_facts t
  unfold vblk iblk
  rw [View.read_apply]
  show V m c main_v13 _ = V m c main_v13 _
  congr 1
  funext a
  apply Fin.ext
  match a with
  | ⟨0, _⟩ => show win0_1.index t (0 : Fin 2) * 1024 + 1 * q.val = J.val; omega
  | ⟨1, _⟩ => show win0_1.index t (1 : Fin 2) * 256 + 1 * k.val = k.val; omega

/-- An element of the audio-label block at point `t` is the label at the block's position. -/
theorem lablk_apply (c : Dev nD) (t : Fin cfg0.N) (p : Fin 1024) (I : Fin 8192)
    (hI : I.val = win0_2.index t (1 : Fin 2) * 1024 + p.val) :
    lablk m c t (ix2 (0 : Fin 1) p) = La m c (ix1 I) := by
  obtain ⟨-, -, -, -, e4, e5, -⟩ := idx_facts t
  unfold lablk iblk
  rw [View.read_apply]
  show V m c main_v14 _ = V m c main_v14 _
  congr 1
  funext a
  apply Fin.ext
  match a with
  | ⟨0, _⟩ => show win0_2.index t (0 : Fin 2) * 1 + 1 * 0 = 0; omega
  | ⟨1, _⟩ => show win0_2.index t (1 : Fin 2) * 1024 + 1 * p.val = I.val; omega

/-- An element of the visual-label block at point `t` is the label at the block's position. -/
theorem lvblk_apply (c : Dev nD) (t : Fin cfg0.N) (q : Fin 1024) (J : Fin 8192)
    (hJ : J.val = win0_3.index t (1 : Fin 2) * 1024 + q.val) :
    lvblk m c t (ix2 (0 : Fin 1) q) = Lv m c (ix1 J) := by
  obtain ⟨-, -, -, -, -, -, e6, e7, -⟩ := idx_facts t
  unfold lvblk iblk
  rw [View.read_apply]
  show V m c main_v15 _ = V m c main_v15 _
  congr 1
  funext a
  apply Fin.ext
  match a with
  | ⟨0, _⟩ => show win0_3.index t (0 : Fin 2) * 1 + 1 * 0 = 0; omega
  | ⟨1, _⟩ => show win0_3.index t (1 : Fin 2) * 1024 + 1 * q.val = J.val; omega

/-- The tile's exponential is the specification's at the rows the tile holds. -/
theorem tileE_eq (c : Dev nD) (t : Fin cfg0.N) (p q : Fin 1024) (I J : Fin 8192)
    (hI : I.val = win0_0.index t (0 : Fin 2) * 1024 + p.val) (hJ : J.val = win0_1.index t (0 : Fin 2) * 1024 + q.val) :
    Pay.tileE (ablk m c t) (vblk m c t) p q = Cert.Spec.E (An m c) (Vn m c) I J := by
  unfold Pay.tileE Cert.Spec.E Cert.Spec.sim
  refine congrArg (fun s => Ideal.exp (s * Cert.Temp.invTemp)) (Finset.sum_congr rfl fun k _ => ?_)
  rw [ablk_apply m c t p k I hI, vblk_apply m c t q k J hJ]

/-- The tile's row weight is the specification's. -/
theorem tileW_eq (c : Dev nD) (t : Fin cfg0.N) (p : Fin 1024) (I : Fin 8192)
    (hI : I.val = win0_2.index t (1 : Fin 2) * 1024 + p.val) :
    Pay.tileW (lablk m c t) p = Cert.Spec.wt (La m c) I := by
  unfold Pay.tileW Cert.Spec.wt
  rw [lablk_apply m c t p I hI]

/-- The tile's masked exponential is the specification's. -/
theorem tileEm_eq (c : Dev nD) (t : Fin cfg0.N) (p q : Fin 1024) (I J : Fin 8192)
    (hI : I.val = win0_0.index t (0 : Fin 2) * 1024 + p.val) (hJ : J.val = win0_1.index t (0 : Fin 2) * 1024 + q.val)
    (hI' : I.val = win0_2.index t (1 : Fin 2) * 1024 + p.val) (hJ' : J.val = win0_3.index t (1 : Fin 2) * 1024 + q.val) :
    Pay.tileEm (ablk m c t) (vblk m c t) (lablk m c t) (lvblk m c t) p q
      = Cert.Spec.Em (An m c) (Vn m c) (La m c) (Lv m c) I J := by
  unfold Pay.tileEm Pay.tileSame Cert.Spec.Em Cert.Spec.same
  rw [tileE_eq m c t p q I J hI hJ, lablk_apply m c t p I hI', lvblk_apply m c t q J hJ']

/-! ## The row sums of the exponentials (output window 4) -/

/-- The array the window ends holding. -/
abbrev G4 (c : Dev nD) : S8x1x8192.Idx → EReal := fun y => Cert.Spec.rowExp (An m c) (Vn m c) (y 0) (y 2)

theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz3]
  simp only [View.ld_unit_zero (S := S1024x256) hz2]
  funext j
  obtain ⟨u0, u1, p, rfl⟩ : ∃ (u0 : Fin 1) (u1 : Fin 1) (p : Fin 1024), j = ix3 u0 u1 p := ⟨j 0, j 1, j 2, eq_ix3 j⟩
  refine (Pay.rowExp_apply (ablk m c t) (vblk m c t) u0 u1 p).trans ?_
  rw [View.read_apply]
  generalize hE : ((cfg0.win 4).blk t).view.emb (ix3 u0 u1 p) = e
  have h0 : (e 0).val = win0_4.index t (0 : Fin 3) * 1 + 1 * u0.val := by rw [← hE]; rfl
  have h2 : (e 2).val = win0_4.index t (2 : Fin 3) * 1024 + 1 * p.val := by rw [← hE]; rfl
  obtain ⟨e0, e1, e2, e3, e4, e5, e6, e7, e8, e9, e10, -⟩ := idx_facts t
  have hu0 : u0.val = 0 := by omega
  show _ = Cert.Spec.rowExp (An m c) (Vn m c) (e 0) (e 2)
  unfold Cert.Spec.rowExp
  refine Finset.sum_congr rfl fun q _ => ?_
  refine tileE_eq m c t p q _ _ ?_ ?_
  · show (e 2).val = _; omega
  · show (e 0).val * 1024 + q.val = _; omega

/-- An index of the array is in point `t`'s block of window 4 iff each coordinate is in the block's range. -/
theorem mem_blk4 (t : Fin cfg0.N) (i : S8x1x8192.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v16_0).slice (win0_4.rect t)).set ↔ _
  rw [View.set_slice_whole, Rect.mem_set_unit]
  exact Iff.rfl

/-- The blocks of window 4 tile its array. -/
theorem cover4 (i : S8x1x8192.Idx) : ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 8192 := (i 2).isLt
  obtain ⟨t, ht0, ht2⟩ := idx_onto ⟨(i 0).val, hi0⟩ ⟨(i 2).val / 1024, by omega⟩
  obtain ⟨-, -, -, -, -, -, -, -, e8, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; simp only at ht0; omega
  | ⟨1, _⟩ => show win0_4.index t (1 : Fin 3) * 1 ≤ (i 1).val ∧ (i 1).val < win0_4.index t (1 : Fin 3) * 1 + 1; omega
  | ⟨2, _⟩ => show win0_4.index t (2 : Fin 3) * 1024 ≤ (i 2).val ∧ (i 2).val < win0_4.index t (2 : Fin 3) * 1024 + 1024; simp only at ht2; omega

/-- The row sums' array after the run. -/
theorem final4 (c : Dev nD) : (dats m 0 c).arrAt 4 cfg0.N = G4 m c :=
  (dats m 0 c).arrAt_eq_of_cover 4 (G4 m c) (fun t _ => flushed4_eq m c t) cover4

/-! ## The weighted row sums (output window 5) -/

/-- The array the window ends holding. -/
abbrev G5 (c : Dev nD) : S8x1x8192.Idx → EReal := fun y => Cert.Spec.rowWexp (An m c) (Vn m c) (La m c) (Lv m c) (y 0) (y 2)

theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz3]
  simp only [View.ld_unit_zero (S := S1024x256) hz2, View.ld_unit_zero (S := S1x1024) hz2]
  funext j
  obtain ⟨u0, u1, p, rfl⟩ : ∃ (u0 : Fin 1) (u1 : Fin 1) (p : Fin 1024), j = ix3 u0 u1 p := ⟨j 0, j 1, j 2, eq_ix3 j⟩
  refine (Pay.rowWexp_apply (ablk m c t) (vblk m c t) (lablk m c t) (lvblk m c t) u0 u1 p).trans ?_
  rw [View.read_apply]
  generalize hE : ((cfg0.win 5).blk t).view.emb (ix3 u0 u1 p) = e
  have h0 : (e 0).val = win0_5.index t (0 : Fin 3) * 1 + 1 * u0.val := by rw [← hE]; rfl
  have h2 : (e 2).val = win0_5.index t (2 : Fin 3) * 1024 + 1 * p.val := by rw [← hE]; rfl
  obtain ⟨e0, e1, e2, e3, e4, e5, e6, e7, e8, e9, e10, e11, -⟩ := idx_facts t
  rw [e11] at h0 h2
  have hu0 : u0.val = 0 := by omega
  show _ = Cert.Spec.rowWexp (An m c) (Vn m c) (La m c) (Lv m c) (e 0) (e 2)
  unfold Cert.Spec.rowWexp
  refine congrArg₂ (· * ·) (tileW_eq m c t p _ ?_) (Finset.sum_congr rfl fun q _ => tileEm_eq m c t p q _ _ ?_ ?_ ?_ ?_)
  · show (e 2).val = _; omega
  · show (e 2).val = _; omega
  · show (e 0).val * 1024 + q.val = _; omega
  · show (e 2).val = _; omega
  · show (e 0).val * 1024 + q.val = _; omega

theorem mem_blk5 (t : Fin cfg0.N) (i : S8x1x8192.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v16_1).slice (win0_5.rect t)).set ↔ _
  rw [View.set_slice_whole, Rect.mem_set_unit]
  exact Iff.rfl

theorem cover5 (i : S8x1x8192.Idx) : ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 8192 := (i 2).isLt
  obtain ⟨t, ht0, ht2⟩ := idx_onto ⟨(i 0).val, hi0⟩ ⟨(i 2).val / 1024, by omega⟩
  obtain ⟨-, -, -, -, -, -, -, -, e8, -, -, e11, -⟩ := idx_facts t
  refine ⟨t, flush0_5 t, ?_⟩
  rw [mem_blk5, e11]
  intro a
  match a with
  | ⟨0, _⟩ => show win0_4.index t (0 : Fin 3) * 1 ≤ (i 0).val ∧ (i 0).val < win0_4.index t (0 : Fin 3) * 1 + 1; simp only at ht0; omega
  | ⟨1, _⟩ => show win0_4.index t (1 : Fin 3) * 1 ≤ (i 1).val ∧ (i 1).val < win0_4.index t (1 : Fin 3) * 1 + 1; omega
  | ⟨2, _⟩ => show win0_4.index t (2 : Fin 3) * 1024 ≤ (i 2).val ∧ (i 2).val < win0_4.index t (2 : Fin 3) * 1024 + 1024; simp only at ht2; omega

/-- The weighted row sums' array after the run. -/
theorem final5 (c : Dev nD) : (dats m 0 c).arrAt 5 cfg0.N = G5 m c :=
  (dats m 0 c).arrAt_eq_of_cover 5 (G5 m c) (fun t _ => flushed5_eq m c t) cover5

/-! ## The column sums of the exponentials (output window 6) -/

/-- The array the window ends holding. -/
abbrev G6 (c : Dev nD) : S8x1x8192.Idx → EReal := fun y => Cert.Spec.colExp (An m c) (Vn m c) (y 0) (y 2)

theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz3]
  simp only [View.ld_unit_zero (S := S1024x256) hz2]
  funext j
  obtain ⟨u0, u1, q, rfl⟩ : ∃ (u0 : Fin 1) (u1 : Fin 1) (q : Fin 1024), j = ix3 u0 u1 q := ⟨j 0, j 1, j 2, eq_ix3 j⟩
  refine (Pay.colExp_apply (ablk m c t) (vblk m c t) u0 u1 q).trans ?_
  rw [View.read_apply]
  generalize hE : ((cfg0.win 6).blk t).view.emb (ix3 u0 u1 q) = e
  have h0 : (e 0).val = win0_6.index t (0 : Fin 3) * 1 + 1 * u0.val := by rw [← hE]; rfl
  have h2 : (e 2).val = win0_6.index t (2 : Fin 3) * 1024 + 1 * q.val := by rw [← hE]; rfl
  obtain ⟨e0, e1, e2, e3, e4, e5, e6, e7, e8, e9, e10, e11, e12, e13, e14, -⟩ := idx_facts t
  have hu0 : u0.val = 0 := by omega
  show _ = Cert.Spec.colExp (An m c) (Vn m c) (e 0) (e 2)
  unfold Cert.Spec.colExp
  refine Finset.sum_congr rfl fun p _ => ?_
  refine tileE_eq m c t p q _ _ ?_ ?_
  · show (e 0).val * 1024 + p.val = _; omega
  · show (e 2).val = _; omega

theorem mem_blk6 (t : Fin cfg0.N) (i : S8x1x8192.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v16_2).slice (win0_6.rect t)).set ↔ _
  rw [View.set_slice_whole, Rect.mem_set_unit]
  exact Iff.rfl

theorem cover6 (i : S8x1x8192.Idx) : ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 8192 := (i 2).isLt
  obtain ⟨t, ht0, ht2⟩ := idx_onto ⟨(i 2).val / 1024, by omega⟩ ⟨(i 0).val, hi0⟩
  obtain ⟨-, -, -, -, -, -, -, -, -, -, -, -, e12, e13, e14, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; simp only at ht2; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; simp only at ht0; omega

/-- The column sums' array after the run. -/
theorem final6 (c : Dev nD) : (dats m 0 c).arrAt 6 cfg0.N = G6 m c :=
  (dats m 0 c).arrAt_eq_of_cover 6 (G6 m c) (fun t _ => flushed6_eq m c t) cover6

/-! ## The weighted column sums (output window 7) -/

/-- The array the window ends holding. -/
abbrev G7 (c : Dev nD) : S8x1x8192.Idx → EReal := fun y => Cert.Spec.colWexp (An m c) (Vn m c) (La m c) (Lv m c) (y 0) (y 2)

theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz3]
  simp only [View.ld_unit_zero (S := S1024x256) hz2, View.ld_unit_zero (S := S1x1024) hz2]
  funext j
  obtain ⟨u0, u1, q, rfl⟩ : ∃ (u0 : Fin 1) (u1 : Fin 1) (q : Fin 1024), j = ix3 u0 u1 q := ⟨j 0, j 1, j 2, eq_ix3 j⟩
  refine (Pay.colWexp_apply (ablk m c t) (vblk m c t) (lablk m c t) (lvblk m c t) u0 u1 q).trans ?_
  rw [View.read_apply]
  generalize hE : ((cfg0.win 7).blk t).view.emb (ix3 u0 u1 q) = e
  have h0 : (e 0).val = win0_7.index t (0 : Fin 3) * 1 + 1 * u0.val := by rw [← hE]; rfl
  have h2 : (e 2).val = win0_7.index t (2 : Fin 3) * 1024 + 1 * q.val := by rw [← hE]; rfl
  obtain ⟨e0, e1, e2, e3, e4, e5, e6, e7, e8, e9, e10, e11, e12, e13, e14, e15⟩ := idx_facts t
  rw [e15] at h0 h2
  have hu0 : u0.val = 0 := by omega
  show _ = Cert.Spec.colWexp (An m c) (Vn m c) (La m c) (Lv m c) (e 0) (e 2)
  unfold Cert.Spec.colWexp
  refine Finset.sum_congr rfl fun p _ => ?_
  refine congrArg₂ (· * ·) (tileEm_eq m c t p q _ _ ?_ ?_ ?_ ?_) (tileW_eq m c t p _ ?_)
  · show (e 0).val * 1024 + p.val = _; omega
  · show (e 2).val = _; omega
  · show (e 0).val * 1024 + p.val = _; omega
  · show (e 2).val = _; omega
  · show (e 0).val * 1024 + p.val = _; omega

theorem mem_blk7 (t : Fin cfg0.N) (i : S8x1x8192.Idx) :
    i ∈ ((cfg0.win 7).blk t).view.set ↔ ∀ a : Fin 3, win0_7.index t a * S1x1x1024.size a ≤ (i a).val ∧ (i a).val < win0_7.index t a * S1x1x1024.size a + S1x1x1024.size a := by
  show i ∈ ((View.whole main_v16_3).slice (win0_7.rect t)).set ↔ _
  rw [View.set_slice_whole, Rect.mem_set_unit]
  exact Iff.rfl

theorem cover7 (i : S8x1x8192.Idx) : ∃ t : Fin cfg0.N, (cfg0.win 7).flush t = true ∧ i ∈ ((cfg0.win 7).blk t).view.set := by
  have hi0 : (i 0).val < 8 := (i 0).isLt
  have hi1 : (i 1).val < 1 := (i 1).isLt
  have hi2 : (i 2).val < 8192 := (i 2).isLt
  obtain ⟨t, ht0, ht2⟩ := idx_onto ⟨(i 2).val / 1024, by omega⟩ ⟨(i 0).val, hi0⟩
  obtain ⟨-, -, -, -, -, -, -, -, -, -, -, -, e12, e13, e14, e15⟩ := idx_facts t
  refine ⟨t, flush0_7 t, ?_⟩
  rw [mem_blk7, e15]
  intro a
  match a with
  | ⟨0, _⟩ => show win0_6.index t (0 : Fin 3) * 1 ≤ (i 0).val ∧ (i 0).val < win0_6.index t (0 : Fin 3) * 1 + 1; simp only at ht2; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; simp only at ht0; omega

/-- The weighted column sums' array after the run. -/
theorem final7 (c : Dev nD) : (dats m 0 c).arrAt 7 cfg0.N = G7 m c :=
  (dats m 0 c).arrAt_eq_of_cover 7 (G7 m c) (fun t _ => flushed7_eq m c t) cover7

end Cert.KernelIdeal.Hand

end
-- ==== Proof.PreLabels.lean ====
/-
  What the precondition says of the audio labels, and the host's sum of the eight partial-sum rows.

  * The precondition's last conjunct is `jnp.all((audio_labels == 0) | (audio_labels == 1))`: where the printed predicate is
    all ones, every audio label is the word 0 or the word 1.
  * The host reshapes an `[8, 1, 8192]` array of partial sums to `[8, 8192]` and adds its rows: at column `i` the result is
    the initial value plus the sum over the eight rows `t` of the array at `(t, 0, i)`.
-/
import proofs.«400186_j39642548142296_3_alg».proof.Pre_finite_inputs
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll
import Idealize.ShloMosaic.Lib.Affine

noncomputable section

namespace Cert.PreLabels

open Idealize.ShloMosaic Idealize.ShloMosaic.ValueIdx

/-- Under the printed precondition every audio label is 0 or 1 (at any float instance). -/
theorem labels_binary {F : FTy → Type} [FloatOps F] [Cert.Pre_finite_inputs.Facts]
    (x0 x1 : FVec F Cert.Pre_finite_inputs.S32x256x256 .f32) (x2 x3 : IVec Cert.Pre_finite_inputs.S8192 32)
    (h : Cert.Pre_finite_inputs.fn (F := F) x0 x1 x2 x3 = fun _ => 1#1) (i : Fin 8192) :
    x2 (ix1 i) = 0#32 ∨ x2 (ix1 i) = 1#32 := by
  -- the predicate at its one index: a conjunction whose last conjunct is the `all` over the labels
  have h' := congrFun h ValueIdx.ix0
  dsimp only [Cert.Pre_finite_inputs.fn] at h'
  have hall := (IntOp.andi_eq_one.1 h').2
  -- the scalar shape has one index, so the `all` being 1 says every element of its operand is 1
  haveI : Subsingleton Cert.Pre_finite_inputs.S_.Idx := ⟨fun a b => funext fun d => d.elim0⟩
  have hel := Host.reduce_andi_all _ _ _ _ _ hall (ix1 i)
  -- the element at `i` is the disjunction of two equality tests against the splats of 0 and of 1
  rcases IntOp.ori_eq_one.1 hel with e | e
  · exact Or.inl (IntOp.cmpi_eq.1 e)
  · exact Or.inr (IntOp.cmpi_eq.1 e)

/-- The `[8, 1, 8192]` array of partial sums, reshaped to `[8, 8192]` and its rows added by the host, at column `i`. -/
theorem reduce_rows (hsc : (⟨3, ![8, 1, 8192]⟩ : Shape).ShapeCasts ⟨2, ![8, 8192]⟩)
    (hred : (⟨2, ![8, 8192]⟩ : Shape).ReducesTo [0] ⟨1, ![8192]⟩) (h0 : 0 < (⟨0, ![]⟩ : Shape).numel)
    (arr : FVec Ideal ⟨3, ![8, 1, 8192]⟩ .f32) (i : Fin 8192) :
    Host.reduceAdd (F := Ideal) (shapeCast (⟨2, ![8, 8192]⟩ : Shape) arr hsc) (constant (F := Ideal) ⟨0, ![]⟩ .f32 0x00000000#32) hred h0 (ix1 i)
      = Ideal.ofBits .f32 0x00000000#32 + ∑ t : Fin 8, arr (ix3 t (0 : Fin 1) i) := by
  -- the host's sum over axis 0 is the initial value plus the sum over the eight row coordinates
  simp only [Host.reduceAdd, Ideal.hostReduceAdd_def]
  rw [Ideal.hostReduceAdd_single hred (by decide)]
  refine congrArg (_ + ·) (Finset.sum_congr rfl fun k _ => ?_)
  -- the reshaped array at (k, i) is the array at (k, 0, i): both have row-major position k * 8192 + i
  refine shapeCast_apply arr hsc _ (ix3 k (0 : Fin 1) i) ?_
  rw [Shape.rowMajor_val_three, Shape.rowMajor_val_two]
  show (k.val * 1 + 0) * 8192 + i.val = k.val * 8192 + i.val
  omega

end Cert.PreLabels

end
-- ==== Proof.Tail.lean ====
/-
  The loss both programs end with, as ONE function of the four vectors it consumes: for each direction, with `num` the
  weighted sums and `den` the plain sums of the exponentials,
  `half num den = -(Σ_i [num_i > 0] · log ((num_i + ε) / (den_i + ε))) / max (Σ_i [num_i > 0]) 1`,
  and the result is `0.5 · (half(row direction) + half(column direction))`. Both programs apply exactly these host
  operations, so the proof compares the four vectors and never opens this function.
-/
import Idealize.ShloMosaic.PureOps.Ideal
import Idealize.ShloMosaic.PureOps.Contract

noncomputable section

namespace Cert.Tail

open Idealize.ShloMosaic

/-- The shape of the four vectors. -/
abbrev SL : Shape := ⟨1, ![8192]⟩
/-- The shape of a scalar. -/
abbrev S0 : Shape := ⟨0, ![]⟩

variable {F : FTy → Type} [FloatOps F]
variable (hb : S0.BroadcastsInDim SL (![] : Fin 0 → Fin SL.rank)) (hr : SL.ReducesTo [0] S0) (h0 : 0 < S0.numel)

/-- One direction's loss from its weighted sums `num` and plain sums `den`. -/
def half (num den : FVec F SL .f32) : FVec F S0 .f32 :=
  Host.divf
    (Host.negf (Host.reduceAdd
      (mulf (uitofp .f32 (cmpf .ogt num (broadcastInDim SL ![] hb (constant (F := F) S0 .f32 0x00000000#32))))
        (Host.log (Host.divf (addf num (broadcastInDim SL ![] hb (constant (F := F) S0 .f32 0x322BCC77#32)))
          (addf den (broadcastInDim SL ![] hb (constant (F := F) S0 .f32 0x322BCC77#32))))))
      (constant (F := F) S0 .f32 0x00000000#32) hr h0))
    (maximumf (Host.reduceAdd
        (uitofp .f32 (cmpf .ogt num (broadcastInDim SL ![] hb (constant (F := F) S0 .f32 0x00000000#32))))
        (constant (F := F) S0 .f32 0x00000000#32) hr h0)
      (constant (F := F) S0 .f32 0x3F800000#32))

/-- The result: half the sum of the two directions' losses. -/
def loss (numRow denRow numCol denCol : FVec F SL .f32) : FVec F S0 .f32 :=
  mulf (constant (F := F) S0 .f32 0x3F000000#32) (addf (half hb hr h0 numRow denRow) (half hb hr h0 numCol denCol))

end Cert.Tail

end
-- ==== Proof.RefValue.lean ====
/-
  The reference's four sums and its result, in the terms of the common specification.
-/
import proofs.«400186_j39642548142296_3_alg».proof.Proof.Gen.ReferenceIdeal.Read
import proofs.«400186_j39642548142296_3_alg».proof.Proof.Spec
import proofs.«400186_j39642548142296_3_alg».proof.Proof.Tail

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 x1 : (⟨S32x256x256, .f32⟩ : BufTy).Contents (Elt Ideal)) (x2 x3 : (⟨S8192, .i32⟩ : BufTy).Contents (Elt Ideal))

/-- The reference's normalised audio rows. -/
abbrev An : Cert.Spec.SM.Idx → EReal := val_main_v6 (F := Ideal) x0
/-- The reference's normalised visual rows. -/
abbrev Vn : Cert.Spec.SM.Idx → EReal := val_main_v11 (F := Ideal) x1

/-- The index a row sum reads: row `i`, column `j`. -/
theorem idx_v37 (i j : Fin 8192) : idx_main_v37 (ix1 i) j = ix2 i j :=
  funext fun a => Fin.ext (by match a with | ⟨0, _⟩ => rfl | ⟨1, _⟩ => rfl)

/-- The index a column sum reads: row `i`, column `j`. -/
theorem idx_v54 (i j : Fin 8192) : idx_main_v54 (ix1 j) i = ix2 i j :=
  funext fun a => Fin.ext (by match a with | ⟨0, _⟩ => rfl | ⟨1, _⟩ => rfl)

/-- One element of the reference's exponential matrix is the specification's `E`. -/
theorem v16_eq (i j : Fin 8192) :
    val_main_v16 (F := Ideal) x0 x1 (ix2 i j) = Cert.Spec.E (An x0) (Vn x1) i j := by
  rw [val_main_v16_apply, val_main_v15_apply, val_main_v13_apply, val_main_v14_apply, val_main_cst_1_apply,
    Ideal.hostUnary_exp_def, Ideal.hostDivf_def, Ideal.ofBits_def, Cert.Temp.div_temp]
  unfold Cert.Spec.E Cert.Spec.sim
  refine congrArg (fun s => Ideal.exp (s * Cert.Temp.invTemp)) (Finset.sum_congr rfl fun k _ => ?_)
  rw [val_main_v12_apply]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

theorem denRow_eq (i : Fin 8192) :
    val_main_v37 (F := Ideal) x0 x1 (ix1 i)
      = Ideal.ofBits .f32 0x00000000#32 + ∑ j : Fin 8192, Cert.Spec.E (An x0) (Vn x1) i j := by
  rw [val_main_v37_apply]
  refine congrArg₂ (· + ·) rfl (Finset.sum_congr rfl fun j _ => ?_)
  rw [idx_v37, v16_eq]

/-- The audio label of row `i`, read through the broadcasts along the columns (the three routes to it are the same index). -/
theorem la_v34 (i j : Fin 8192) : idx_main_v17 (idx_main_v34 (ix2 i j)) = ix1 i :=
  funext fun a => Fin.ext (by match a with | ⟨0, _⟩ => rfl)

/-- The visual label read through the two broadcasts that feed the comparison of the labels. -/
theorem lv_v20 (i j : Fin 8192) : idx_main_v18 (idx_main_v20 (ix2 i j)) = ix1 j :=
  funext fun a => Fin.ext (by match a with | ⟨0, _⟩ => rfl)

/-- One element of the reference's weighted matrix is the specification's `refTerm`. -/
theorem v36_eq (i j : Fin 8192) :
    val_main_v36 (F := Ideal) x0 x1 x2 x3 (ix2 i j) = Cert.Spec.refTerm (An x0) (Vn x1) x2 x3 i j := by
  rw [val_main_v36_apply, v16_eq]
  simp only [val_main_v35_apply, val_main_v34_apply, val_main_v33_apply, val_main_v31_apply, val_main_v30_apply,
    val_main_v17_apply, val_main_v29_apply, val_main_c_3_apply, val_main_call2_v0_apply, val_main_call2_v1_apply,
    val_main_cst_4_apply, val_main_cst_5_apply, val_main_v32_apply, val_main_v28_apply, val_main_v21_apply,
    val_main_v19_apply, val_main_v20_apply, val_main_v18_apply, val_main_v27_apply, val_main_v26_apply,
    val_main_v23_apply, val_main_v25_apply, val_main_v22_apply, val_main_c_apply, val_main_v24_apply,
    val_main_c_2_apply]
  rw [la_v34, lv_v20]
  rfl

theorem numRow_eq (i : Fin 8192) :
    val_main_v38 (F := Ideal) x0 x1 x2 x3 (ix1 i)
      = Ideal.ofBits .f32 0x00000000#32 + ∑ j : Fin 8192, Cert.Spec.refTerm (An x0) (Vn x1) x2 x3 i j := by
  rw [val_main_v38_apply]
  refine congrArg₂ (· + ·) rfl (Finset.sum_congr rfl fun j _ => ?_)
  rw [show idx_main_v38 (ix1 i) j = ix2 i j from idx_v37 i j, v36_eq]

theorem denCol_eq (j : Fin 8192) :
    val_main_v54 (F := Ideal) x0 x1 (ix1 j)
      = Ideal.ofBits .f32 0x00000000#32 + ∑ i : Fin 8192, Cert.Spec.E (An x0) (Vn x1) i j := by
  rw [val_main_v54_apply]
  refine congrArg₂ (· + ·) rfl (Finset.sum_congr rfl fun i _ => ?_)
  rw [idx_v54, v16_eq]

theorem numCol_eq (j : Fin 8192) :
    val_main_v55 (F := Ideal) x0 x1 x2 x3 (ix1 j)
      = Ideal.ofBits .f32 0x00000000#32 + ∑ i : Fin 8192, Cert.Spec.refTerm (An x0) (Vn x1) x2 x3 i j := by
  rw [val_main_v55_apply]
  refine congrArg₂ (· + ·) rfl (Finset.sum_congr rfl fun i _ => ?_)
  rw [show idx_main_v55 (ix1 j) i = ix2 i j from idx_v54 i j, v36_eq]

theorem result_eq :
    val_main_v72 (F := Ideal) x0 x1 x2 x3
      = Cert.Tail.loss (F := Ideal) bcast_S_S8192 reducesTo_S8192_S_d0 h_S_
          (val_main_v38 (F := Ideal) x0 x1 x2 x3) (val_main_v37 (F := Ideal) x0 x1)
          (val_main_v55 (F := Ideal) x0 x1 x2 x3) (val_main_v54 (F := Ideal) x0 x1) := by
  unfold val_main_v72 val_main_v71 val_main_v70 val_main_v69 val_main_v68 val_main_v67 val_main_v66 val_main_v65
    val_main_v64 val_main_v63 val_main_v62 val_main_v61 val_main_v60 val_main_v59 val_main_v58 val_main_v57
    val_main_v56 val_main_v53 val_main_v52 val_main_v51 val_main_v50 val_main_v49 val_main_v48 val_main_v47
    val_main_v46 val_main_v45 val_main_v44 val_main_v43 val_main_v42 val_main_v41 val_main_v40 val_main_v39
    val_main_cst_8 val_main_cst_9 val_main_cst_10 val_main_cst_11 val_main_cst_12 val_main_cst_13
    val_main_cst_16 val_main_cst_17 val_main_cst_18 val_main_cst_19 val_main_cst_20 val_main_cst_21 val_main_cst_22
    Cert.Tail.loss Cert.Tail.half
  rfl

end Cert.ReferenceIdeal.RefValue

end
-- ==== Proof.KRun.lean ====
/-
  The kernel program's run read as values: the two normalised arrays and the labels the region finds are the
  reference's own stages of the arguments (the host prefix is the reference's, a change of float format being the
  identity on the extended reals); the result is the shared loss of the host's sums of the four output arrays' eight
  rows; and those four sums are the reference's four sums, by the specification's laws — the weighted ones where every
  audio label is 0 or 1, which the precondition states.
-/
import proofs.«400186_j39642548142296_3_alg».proof.Defs
import proofs.«400186_j39642548142296_3_alg».proof.Proof.KFinal
import proofs.«400186_j39642548142296_3_alg».proof.Proof.PreLabels
import proofs.«400186_j39642548142296_3_alg».proof.Proof.RefValue
import proofs.«400186_j39642548142296_3_alg».proof.Proof.Gen.Pre_finite_inputs
import Idealize.ShloMosaic.Lib.StableHlo.Run
import Idealize.ShloMosaic.Lib.ValueLayout

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The arrays the region finds -/

set_option maxHeartbeats 1000000 in
/-- The normalised audio rows the region finds are the reference's stage of the audio argument. -/
theorem An_eq (c : Dev nD) :
    An m c = Cert.ReferenceIdeal.Read.val_main_v6 (F := Ideal) (m ((c : Thread nD τ).loc main_arg0)) := by
  show V m c main_v10 = _
  dsimp only [GenP.V, GenP.V0]
  simp only [hostOps0, hostOps0_1, hostOps0_2, hostOps0_3, hostOps0_4, List.flatten_cons, List.flatten_nil,
    List.append_nil, List.cons_append, List.nil_append]
  after_results
  rfl

set_option maxHeartbeats 1000000 in
/-- The normalised visual rows the region finds are the reference's stage of the visual argument. -/
theorem Vn_eq (c : Dev nD) :
    Vn m c = Cert.ReferenceIdeal.Read.val_main_v11 (F := Ideal) (m ((c : Thread nD τ).loc main_arg1)) := by
  show V m c main_v13 = _
  dsimp only [GenP.V, GenP.V0]
  simp only [hostOps0, hostOps0_1, hostOps0_2, hostOps0_3, hostOps0_4, List.flatten_cons, List.flatten_nil,
    List.append_nil, List.cons_append, List.nil_append]
  after_results
  rfl

set_option maxHeartbeats 1000000 in
/-- The audio labels the region finds, by position, are the audio-label argument. -/
theorem La_eq (c : Dev nD) : La m c = m ((c : Thread nD τ).loc main_arg2) := by
  have e : (V m c main_v14 : S1x8192.Idx → BitVec 32)
      = shapeCast S1x8192 (m ((c : Thread nD τ).loc main_arg2)) shapeCasts_S8192_S1x8192 := by
    dsimp only [GenP.V, GenP.V0]
    simp only [hostOps0, hostOps0_1, hostOps0_2, hostOps0_3, hostOps0_4, List.flatten_cons, List.flatten_nil,
      List.append_nil, List.cons_append, List.nil_append]
    after_results
    rfl
  funext i
  obtain ⟨p, rfl⟩ : ∃ p : Fin 8192, i = ix1 p := ⟨i 0, eq_ix1 i⟩
  show V m c main_v14 (ix2 (0 : Fin 1) p) = _
  rw [e]
  exact shapeCast_a_1a_apply _ _ (0 : Fin 1) p

set_option maxHeartbeats 1000000 in
/-- The visual labels the region finds, by position, are the visual-label argument. -/
theorem Lv_eq (c : Dev nD) : Lv m c = m ((c : Thread nD τ).loc main_arg3) := by
  have e : (V m c main_v15 : S1x8192.Idx → BitVec 32)
      = shapeCast S1x8192 (m ((c : Thread nD τ).loc main_arg3)) shapeCasts_S8192_S1x8192 := by
    dsimp only [GenP.V, GenP.V0]
    simp only [hostOps0, hostOps0_1, hostOps0_2, hostOps0_3, hostOps0_4, List.flatten_cons, List.flatten_nil,
      List.append_nil, List.cons_append, List.nil_append]
    after_results
    rfl
  funext i
  obtain ⟨p, rfl⟩ : ∃ p : Fin 8192, i = ix1 p := ⟨i 0, eq_ix1 i⟩
  show V m c main_v15 (ix2 (0 : Fin 1) p) = _
  rw [e]
  exact shapeCast_a_1a_apply _ _ (0 : Fin 1) p

/-! ## The result after the host's tail -/

/-- The host's sum of the eight rows of output array `w` after the run. -/
abbrev rows (c : Dev nD) (A : FVec Ideal S8x1x8192 .f32) : FVec Ideal S8192 .f32 :=
  Host.reduceAdd (F := Ideal) (shapeCast S8x8192 A shapeCasts_S8x1x8192_S8x8192) (constant (F := Ideal) S_ .f32 0x00000000#32)
    reducesTo_S8x8192_S8192_d0 h_S_

/-- What the result buffer holds after the run. -/
def Kres (c : Dev nD) : Buf (Elt Ideal) ((c.tc : Thread nD τ).loc main_v56) :=
  Pipeline.afterTail₀ cfgs (dats m) 0 (V0 m) [hostOps1] c main_v56

set_option maxHeartbeats 4000000 in
set_option maxRecDepth 8192 in
/-- The result is the shared loss of the host's row sums of the four output arrays. -/
theorem Kres_eq (c : Dev nD) :
    Kres m c = Cert.Tail.loss (F := Ideal) bcast_S_S8192 reducesTo_S8192_S_d0 h_S_
      (rows c ((dats m 0 c).arrAt 5 cfg0.N)) (rows c ((dats m 0 c).arrAt 4 cfg0.N))
      (rows c ((dats m 0 c).arrAt 7 cfg0.N)) (rows c ((dats m 0 c).arrAt 6 cfg0.N)) := by
  have h4 := Pipeline.withArrays_arr spec0 launch0.win.arr_inj c (V0 m c) (fun w => (dats m 0 c).arrAt w cfg0.N) 4
  have h5 := Pipeline.withArrays_arr spec0 launch0.win.arr_inj c (V0 m c) (fun w => (dats m 0 c).arrAt w cfg0.N) 5
  have h6 := Pipeline.withArrays_arr spec0 launch0.win.arr_inj c (V0 m c) (fun w => (dats m 0 c).arrAt w cfg0.N) 6
  have h7 := Pipeline.withArrays_arr spec0 launch0.win.arr_inj c (V0 m c) (fun w => (dats m 0 c).arrAt w cfg0.N) 7
  unfold Kres Pipeline.afterTail₀
  show StableHlo.after hostOps1 _ (Proc.devRef .tc main_v56) = _
  after_results_simp
  have h4' : Pipeline.withArrays (cfgs 0).spec c (V0 m c) (fun w => (dats m 0 c).arrAt w (cfgs 0).N) (Proc.devRef .tc main_v16_0)
      = (dats m 0 c).arrAt 4 cfg0.N := h4
  have h5' : Pipeline.withArrays (cfgs 0).spec c (V0 m c) (fun w => (dats m 0 c).arrAt w (cfgs 0).N) (Proc.devRef .tc main_v16_1)
      = (dats m 0 c).arrAt 5 cfg0.N := h5
  have h6' : Pipeline.withArrays (cfgs 0).spec c (V0 m c) (fun w => (dats m 0 c).arrAt w (cfgs 0).N) (Proc.devRef .tc main_v16_2)
      = (dats m 0 c).arrAt 6 cfg0.N := h6
  have h7' : Pipeline.withArrays (cfgs 0).spec c (V0 m c) (fun w => (dats m 0 c).arrAt w (cfgs 0).N) (Proc.devRef .tc main_v16_3)
      = (dats m 0 c).arrAt 7 cfg0.N := h7
  rw [h4', h5', h6', h7']
  rfl

/-- The run of the kernel program read: the result at `Kres`, the arguments unchanged. -/
theorem run : θ_run defs (onTc (τ := τ) (main (F := Ideal))) ⟨m, fun _ => 0, ρ⟩ (fun r => ∀ c : Dev nD,
      r.2.mem ((c.tc : Thread nD τ).loc main_v56) = Kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_v56 (Pipeline.mem_restRefs_of main_v56 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

/-! ## The four sums are the reference's -/

section Sums

variable (c : Dev nD)

/-- The row sums of the exponentials. -/
theorem denRow_eq :
    rows c ((dats m 0 c).arrAt 4 cfg0.N)
      = Cert.ReferenceIdeal.Read.val_main_v37 (F := Ideal) (m ((c : Thread nD τ).loc main_arg0)) (m ((c : Thread nD τ).loc main_arg1)) := by
  funext i
  obtain ⟨p, rfl⟩ : ∃ p : Fin 8192, i = ix1 p := ⟨i 0, eq_ix1 i⟩
  rw [final4, Cert.ReferenceIdeal.RefValue.denRow_eq]
  refine (Cert.PreLabels.reduce_rows _ _ _ (G4 m c) p).trans ?_
  have hA : Cert.ReferenceIdeal.RefValue.An (m ((c : Thread nD τ).loc main_arg0)) = An m c := (An_eq m c).symm
  have hV : Cert.ReferenceIdeal.RefValue.Vn (m ((c : Thread nD τ).loc main_arg1)) = Vn m c := (Vn_eq m c).symm
  rw [hA, hV]
  exact congrArg (_ + ·) (Cert.Spec.sum_rowExp (An m c) (Vn m c) p)

/-- The column sums of the exponentials. -/
theorem denCol_eq :
    rows c ((dats m 0 c).arrAt 6 cfg0.N)
      = Cert.ReferenceIdeal.Read.val_main_v54 (F := Ideal) (m ((c : Thread nD τ).loc main_arg0)) (m ((c : Thread nD τ).loc main_arg1)) := by
  funext i
  obtain ⟨p, rfl⟩ : ∃ p : Fin 8192, i = ix1 p := ⟨i 0, eq_ix1 i⟩
  rw [final6, Cert.ReferenceIdeal.RefValue.denCol_eq]
  refine (Cert.PreLabels.reduce_rows _ _ _ (G6 m c) p).trans ?_
  have hA : Cert.ReferenceIdeal.RefValue.An (m ((c : Thread nD τ).loc main_arg0)) = An m c := (An_eq m c).symm
  have hV : Cert.ReferenceIdeal.RefValue.Vn (m ((c : Thread nD τ).loc main_arg1)) = Vn m c := (Vn_eq m c).symm
  rw [hA, hV]
  exact congrArg (_ + ·) (Cert.Spec.sum_colExp (An m c) (Vn m c) p)

variable (hla : ∀ i : Fin 8192, (m ((c : Thread nD τ).loc main_arg2) : S8192.Idx → BitVec 32) (ix1 i) = 0#32
  ∨ (m ((c : Thread nD τ).loc main_arg2) : S8192.Idx → BitVec 32) (ix1 i) = 1#32)
include hla

/-- The weighted row sums, where every audio label is 0 or 1. -/
theorem numRow_eq :
    rows c ((dats m 0 c).arrAt 5 cfg0.N)
      = Cert.ReferenceIdeal.Read.val_main_v38 (F := Ideal) (m ((c : Thread nD τ).loc main_arg0)) (m ((c : Thread nD τ).loc main_arg1))
          (m ((c : Thread nD τ).loc main_arg2)) (m ((c : Thread nD τ).loc main_arg3)) := by
  funext i
  obtain ⟨p, rfl⟩ : ∃ p : Fin 8192, i = ix1 p := ⟨i 0, eq_ix1 i⟩
  rw [final5, Cert.ReferenceIdeal.RefValue.numRow_eq]
  refine (Cert.PreLabels.reduce_rows _ _ _ (G5 m c) p).trans ?_
  have hA : Cert.ReferenceIdeal.RefValue.An (m ((c : Thread nD τ).loc main_arg0)) = An m c := (An_eq m c).symm
  have hV : Cert.ReferenceIdeal.RefValue.Vn (m ((c : Thread nD τ).loc main_arg1)) = Vn m c := (Vn_eq m c).symm
  rw [hA, hV, ← La_eq m c, ← Lv_eq m c]
  exact congrArg (_ + ·) (Cert.Spec.sum_rowWexp (An m c) (Vn m c) (La m c) (Lv m c) (by rw [La_eq]; exact hla) p)

/-- The weighted column sums, where every audio label is 0 or 1. -/
theorem numCol_eq :
    rows c ((dats m 0 c).arrAt 7 cfg0.N)
      = Cert.ReferenceIdeal.Read.val_main_v55 (F := Ideal) (m ((c : Thread nD τ).loc main_arg0)) (m ((c : Thread nD τ).loc main_arg1))
          (m ((c : Thread nD τ).loc main_arg2)) (m ((c : Thread nD τ).loc main_arg3)) := by
  funext i
  obtain ⟨p, rfl⟩ : ∃ p : Fin 8192, i = ix1 p := ⟨i 0, eq_ix1 i⟩
  rw [final7, Cert.ReferenceIdeal.RefValue.numCol_eq]
  refine (Cert.PreLabels.reduce_rows _ _ _ (G7 m c) p).trans ?_
  have hA : Cert.ReferenceIdeal.RefValue.An (m ((c : Thread nD τ).loc main_arg0)) = An m c := (An_eq m c).symm
  have hV : Cert.ReferenceIdeal.RefValue.Vn (m ((c : Thread nD τ).loc main_arg1)) = Vn m c := (Vn_eq m c).symm
  rw [hA, hV, ← La_eq m c, ← Lv_eq m c]
  exact congrArg (_ + ·) (Cert.Spec.sum_colWexp (An m c) (Vn m c) (La m c) (Lv m c) (by rw [La_eq]; exact hla) p)

/-- The kernel program's result is the reference's result stage of the same arguments. -/
theorem Kres_eq_ref :
    Kres m c = Cert.ReferenceIdeal.Read.val_main_v72 (F := Ideal) (m ((c : Thread nD τ).loc main_arg0)) (m ((c : Thread nD τ).loc main_arg1))
          (m ((c : Thread nD τ).loc main_arg2)) (m ((c : Thread nD τ).loc main_arg3)) := by
  rw [Kres_eq, Cert.ReferenceIdeal.RefValue.result_eq, numRow_eq m c hla, denRow_eq m c, numCol_eq m c hla, denCol_eq m c]

end Sums

end Cert.KernelIdeal.Hand

end
-- ==== Proof.lean ====
/-
  The certificate of the audio–visual contrastive loss kernel against its reference, over the extended reals.

  Both programs normalise the 8192 audio and 8192 visual feature rows, take the exponentials
  `E i j = exp (⟨a_i, v_j⟩ / temperature)` of all pairwise similarities, and from the sums of `E` and of the
  label-weighted `E` along rows and along columns compute the same loss. The reference forms the 8192 × 8192 matrix and
  sums it whole; the kernel walks an 8 × 8 grid of 1024 × 1024 tiles, leaves each tile's partial row and column sums in
  four `[8, 1, 8192]` arrays, and the host adds the eight partial sums. They differ in three ways, none of which
  changes an extended real:
  * the kernel multiplies the similarities by the named reciprocal of the temperature where the reference divides by the
    temperature (Proof/Temp.lean; `preserves` is that name's statement);
  * the sums are grouped by tiles, and in the row direction the weight multiplies the tile's masked sum rather than each
    term — a regrouping of finite sums, and a factor moved across a sum of nonnegative terms (Proof/SumLaws.lean,
    Proof/Spec.lean);
  * the kernel omits the reference's test that the audio label is 0 or 1, which the precondition states of every audio
    label (Proof/PreLabels.lean).
  Proof/KPay.lean reads the kernel body's stored values at an index, Proof/KFinal.lean the four output arrays after the
  region, Proof/RefValue.lean the reference's stages, Proof/KRun.lean joins them under the shared loss (Proof/Tail.lean).
-/
import proofs.«400186_j39642548142296_3_alg».proof.Defs
import proofs.«400186_j39642548142296_3_alg».proof.Proof.Gen.Kernel
import proofs.«400186_j39642548142296_3_alg».proof.Proof.Gen.KernelIdeal
import proofs.«400186_j39642548142296_3_alg».proof.Proof.Gen.ReferenceIdeal
import proofs.«400186_j39642548142296_3_alg».proof.Proof.Gen.Pre_finite_inputs
import proofs.«400186_j39642548142296_3_alg».proof.Proof.Gen.ReferenceIdeal.Run
import proofs.«400186_j39642548142296_3_alg».proof.Proof.Gen.ReferenceIdeal.Read
import proofs.«400186_j39642548142296_3_alg».proof.Proof.FrameKernel
import proofs.«400186_j39642548142296_3_alg».proof.Proof.FrameKernelIdeal
import proofs.«400186_j39642548142296_3_alg».proof.Proof.KRun
import Idealize.ShloMosaic.PureOps.IdealRules
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the kernel's scale denotes the exact reciprocal of the reference's temperature word. -/
theorem preserves : Cert.preserves_Kernel_KernelIdeal :=
  IdealRules.named_const.statement Cert.KernelIdeal.κ "inv_temp" .f32 0x41649249#32 ((134217728 / 9395241 : ℝ) : EReal) rfl

/-- From memories agreeing on the arguments both programs end with the same loss: the kernel program's result is the
    reference's result stage of its own arguments, the audio labels being 0 or 1 by the precondition. -/
theorem algebraic : Cert.algebraic_KernelIdeal_ReferenceIdeal := by
  intro m ρ m' ρ' hpre hagree
  refine ⟨fun c => Cert.KernelIdeal.Hand.Kres m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v72_eq, (hagree c).1, (hagree c).2.1, (hagree c).2.2.1, (hagree c).2.2.2]
  exact (Cert.KernelIdeal.Hand.Kres_eq_ref m c fun i => Cert.PreLabels.labels_binary _ _ _ _ (hpre c) i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
